-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S32x64 : Shape := ⟨2, ![32, 64]⟩
abbrev S64 : Shape := ⟨1, ![64]⟩
abbrev S64x64 : Shape := ⟨2, ![64, 64]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x32 .f32) (main_arg1 : FVec F S1600000 .f32) (main_arg2 : IVec S1600000 32) (main_arg3 : IVec S1600000 32) (main_arg4 : FVec F S32x64 .f32) (main_arg5 : FVec F S64 .f32) (main_arg6 : FVec F S64x64 .f32) (main_arg7 : FVec F S64 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x32 : Shape := ⟨2, ![100000, 32]⟩
abbrev S1600000 : Shape := ⟨1, ![1600000]⟩
abbrev S32x64 : Shape := ⟨2, ![32, 64]⟩
abbrev S64 : Shape := ⟨1, ![64]⟩
abbrev S64x64 : Shape := ⟨2, ![64, 64]⟩
abbrev S_ : Shape := ⟨0, ![]⟩
abbrev S1600000x1 : Shape := ⟨2, ![1600000, 1]⟩
abbrev S1600000x32 : Shape := ⟨2, ![1600000, 32]⟩
abbrev S1x64 : Shape := ⟨2, ![1, 64]⟩
abbrev S100000x64 : Shape := ⟨2, ![100000, 64]⟩
abbrev S20000x32 : Shape := ⟨2, ![20000, 32]⟩
abbrev S20000x64 : Shape := ⟨2, ![20000, 64]⟩
abbrev S1600000x64 : Shape := ⟨2, ![1600000, 64]⟩

abbrev nBuf : Space → Nat
  | .hbm => 88
  | .vmem => 12
  | .smem => 0
  | _ => 0

abbrev bufTy : (tb : Table) → Fin (tcTables nBuf tb) → BufTy
  | .hbm, ⟨0, _⟩ => ⟨S100000x32, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S32x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S_, .f32⟩
  | .hbm, ⟨9, _⟩ => ⟨S1600000, .f32⟩
  | .hbm, ⟨10, _⟩ => ⟨S1600000, .f32⟩
  | .hbm, ⟨11, _⟩ => ⟨S1600000x1, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x32, .f32⟩
  | .hbm, ⟨21, _⟩ => ⟨S1600000x32, .f32⟩
  | .hbm, ⟨22, _⟩ => ⟨S1600000x32, .f32⟩
  | .hbm, ⟨23, _⟩ => ⟨S_, .f32⟩
  | .hbm, ⟨24, _⟩ => ⟨S100000x32, .f32⟩
  | .hbm, ⟨25, _⟩ => ⟨S1600000x1, .i32⟩
  | .hbm, ⟨26, _⟩ => ⟨S100000x32, .f32⟩
  | .hbm, ⟨27, _⟩ => ⟨S_, .f32⟩
  | .hbm, ⟨28, _⟩ => ⟨S1600000, .f32⟩
  | .hbm, ⟨29, _⟩ => ⟨S1600000, .f32⟩
  | .hbm, ⟨30, _⟩ => ⟨S1600000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x32, .f32⟩
  | .hbm, ⟨40, _⟩ => ⟨S1600000x32, .f32⟩
  | .hbm, ⟨41, _⟩ => ⟨S1600000x32, .f32⟩
  | .hbm, ⟨42, _⟩ => ⟨S_, .f32⟩
  | .hbm, ⟨43, _⟩ => ⟨S100000x32, .f32⟩
  | .hbm, ⟨44, _⟩ => ⟨S1600000x1, .i32⟩
  | .hbm, ⟨45, _⟩ => ⟨S100000x32, .f32⟩
  | .hbm, ⟨46, _⟩ => ⟨S1x64, .f32⟩
  | .hbm, ⟨47, _⟩ => ⟨S100000x64, .f32⟩
  | .hbm, ⟨48, _⟩ => ⟨S_, .f32⟩
  | .hbm, ⟨49, _⟩ => ⟨S1600000, .f32⟩
  | .hbm, ⟨50, _⟩ => ⟨S1600000, .f32⟩
  | .hbm, ⟨51, _⟩ => ⟨S1600000x1, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S1600000x64, .f32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S_, .f32⟩
  | .hbm, ⟨68, _⟩ => ⟨S1600000, .f32⟩
  | .hbm, ⟨69, _⟩ => ⟨S1600000, .f32⟩
  | .hbm, ⟨70, _⟩ => ⟨S1600000x1, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x64, .f32⟩
  | .hbm, ⟨80, _⟩ => ⟨S1600000x64, .f32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S1x64, .f32⟩
  | .hbm, ⟨87, _⟩ => ⟨S100000x64, .f32⟩
  | .local _ .vmem, ⟨0, _⟩ => ⟨S20000x32, .f32⟩
  | .local _ .vmem, ⟨1, _⟩ => ⟨S20000x32, .f32⟩
  | .local _ .vmem, ⟨2, _⟩ => ⟨S32x64, .f32⟩
  | .local _ .vmem, ⟨3, _⟩ => ⟨S1x64, .f32⟩
  | .local _ .vmem, ⟨4, _⟩ => ⟨S20000x64, .f32⟩
  | .local _ .vmem, ⟨5, _⟩ => ⟨S20000x64, .f32⟩
  | .local _ .vmem, ⟨6, _⟩ => ⟨S20000x64, .f32⟩
  | .local _ .vmem, ⟨7, _⟩ => ⟨S20000x64, .f32⟩
  | .local _ .vmem, ⟨8, _⟩ => ⟨S64x64, .f32⟩
  | .local _ .vmem, ⟨9, _⟩ => ⟨S1x64, .f32⟩
  | .local _ .vmem, ⟨10, _⟩ => ⟨S20000x64, .f32⟩
  | .local _ .vmem, ⟨11, _⟩ => ⟨S20000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S64_S1x64 : S64.ShapeCasts S1x64
  inb_S20000x32_S20000x32_0_0 : ∀ a, (![0, 0] : Fin 2 → Nat) a + S20000x32.size a ≤ S20000x32.size a
  h_S20000x32 : 0 < S20000x32.numel
  shapeCasts_S20000x32_S20000x32 : S20000x32.ShapeCasts S20000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  inb_S20000x64_S20000x64_0_0 : ∀ a, (![0, 0] : Fin 2 → Nat) a + S20000x64.size a ≤ S20000x64.size a
  h_S20000x64 : 0 < S20000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S20000x64_S20000x64 : S20000x64.ShapeCasts S20000x64
  inb_S64x64_S64x64_0_0 : ∀ a, (![0, 0] : Fin 2 → Nat) a + S64x64.size a ≤ S64x64.size a
  h_S64x64 : 0 < S64x64.numel
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S20000x32_S32x64_S20000x64_1_0_0_1_n_n_wf : DotDims.WF S20000x32 S32x64 S20000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S20000x64_S64x64_S20000x64_1_0_0_1_n_n_wf : DotDims.WF S20000x64 S64x64 S20000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x32.size a ≤ S100000x32.size a
  hwx0_0 : ∀ i : grid0.Coords, EltTy.bits .f32 = 32 ∨ (Rect.block (s := S100000x32) S20000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x64.size a ≤ S100000x64.size a
  hwx0_3 : ∀ i : grid0.Coords, EltTy.bits .f32 = 32 ∨ (Rect.block (s := S100000x64) S20000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S100000x64.size a
  hwx1_0 : ∀ i : grid1.Coords, EltTy.bits .f32 = 32 ∨ (Rect.block (s := S100000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x64.size a ≤ S100000x64.size a
  hwx1_3 : ∀ i : grid1.Coords, EltTy.bits .f32 = 32 ∨ (Rect.block (s := S100000x64) S20000x64.size (cc1_transform_3 i) (hinb1_3 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S20000x32_S32x64_S20000x64_1_0_0_1_n_n : DotDims S20000x32 S32x64 S20000x64 where
  lhsContracting := [1]
  rhsContracting := [0]
  lhsNonContracting := [0]
  rhsNonContracting := [1]
  lhsBatch := []
  rhsBatch := []
  wf := dot_S20000x32_S32x64_S20000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf

abbrev win0_0 : Pipeline.Window sig grid0 :=
  Pipeline.Window.ofSpec (Memref.whole main_v29) S20000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S20000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v61) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S20000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x32 : Shape := ⟨2, ![100000, 32]⟩
abbrev S1600000 : Shape := ⟨1, ![1600000]⟩
abbrev S32x64 : Shape := ⟨2, ![32, 64]⟩
abbrev S64 : Shape := ⟨1, ![64]⟩
abbrev S64x64 : Shape := ⟨2, ![64, 64]⟩
abbrev S_ : Shape := ⟨0, ![]⟩
abbrev S1600000x1 : Shape := ⟨2, ![1600000, 1]⟩
abbrev S1600000x32 : Shape := ⟨2, ![1600000, 32]⟩
abbrev S100000x64 : Shape := ⟨2, ![100000, 64]⟩
abbrev S1x64 : Shape := ⟨2, ![1, 64]⟩
abbrev S1600000x64 : Shape := ⟨2, ![1600000, 64]⟩

abbrev nBuf : Space → Nat
  | .hbm => 95
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S32x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S_, .f32⟩
  | .hbm, ⟨9, _⟩ => ⟨S1600000, .f32⟩
  | .hbm, ⟨10, _⟩ => ⟨S1600000, .f32⟩
  | .hbm, ⟨11, _⟩ => ⟨S1600000x1, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x32, .f32⟩
  | .hbm, ⟨21, _⟩ => ⟨S1600000x32, .f32⟩
  | .hbm, ⟨22, _⟩ => ⟨S1600000x32, .f32⟩
  | .hbm, ⟨23, _⟩ => ⟨S_, .f32⟩
  | .hbm, ⟨24, _⟩ => ⟨S100000x32, .f32⟩
  | .hbm, ⟨25, _⟩ => ⟨S1600000x1, .i32⟩
  | .hbm, ⟨26, _⟩ => ⟨S100000x32, .f32⟩
  | .hbm, ⟨27, _⟩ => ⟨S_, .f32⟩
  | .hbm, ⟨28, _⟩ => ⟨S1600000, .f32⟩
  | .hbm, ⟨29, _⟩ => ⟨S1600000, .f32⟩
  | .hbm, ⟨30, _⟩ => ⟨S1600000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x32, .f32⟩
  | .hbm, ⟨40, _⟩ => ⟨S1600000x32, .f32⟩
  | .hbm, ⟨41, _⟩ => ⟨S1600000x32, .f32⟩
  | .hbm, ⟨42, _⟩ => ⟨S_, .f32⟩
  | .hbm, ⟨43, _⟩ => ⟨S100000x32, .f32⟩
  | .hbm, ⟨44, _⟩ => ⟨S1600000x1, .i32⟩
  | .hbm, ⟨45, _⟩ => ⟨S100000x32, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S1600000, .f32⟩
  | .hbm, ⟨55, _⟩ => ⟨S1600000, .f32⟩
  | .hbm, ⟨56, _⟩ => ⟨S1600000x1, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x64, .f32⟩
  | .hbm, ⟨66, _⟩ => ⟨S1600000x64, .f32⟩
  | .hbm, ⟨67, _⟩ => ⟨S1600000x64, .f32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S_, .f32⟩
  | .hbm, ⟨73, _⟩ => ⟨S1600000, .f32⟩
  | .hbm, ⟨74, _⟩ => ⟨S1600000, .f32⟩
  | .hbm, ⟨75, _⟩ => ⟨S1600000x1, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x64, .f32⟩
  | .hbm, ⟨85, _⟩ => ⟨S1600000x64, .f32⟩
  | .hbm, ⟨86, _⟩ => ⟨S1600000x64, .f32⟩
  | .hbm, ⟨87, _⟩ => ⟨S_, .f32⟩
  | .hbm, ⟨88, _⟩ => ⟨S100000x64, .f32⟩
  | .hbm, ⟨89, _⟩ => ⟨S1600000x1, .i32⟩
  | .hbm, ⟨90, _⟩ => ⟨S100000x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_cst : Ref sig .tc := ⟨.hbm, 50, rfl⟩
abbrev main_call0_v0 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_c_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Dense.lean ====
/-
  What the two programs compute, as functions of arrays over the extended reals.

  A node-feature matrix is propagated twice along the edges (a gather of source rows, a scaling by half the edge
  weight, a scatter-add into target rows); the result goes through a dense layer `relu (h W₁ + b₁)`; that is propagated
  twice again and goes through a second dense layer `h W₂ + b₂`. The propagation is the same host computation in both
  programs, so it never has to be opened: only the two dense layers are stated here, entry by entry — row `i` of the
  input against column `j` of the weights, summed over the shared axis, plus entry `j` of the bias (and, in the first
  layer, the maximum with zero).
-/
import Idealize.ShloMosaic.PureOps.Ideal
import Idealize.ShloMosaic.Lib.ValueIdx

noncomputable section

namespace Cert.Dense

open Idealize.ShloMosaic Idealize.ShloMosaic.ValueIdx

/-- The first dense layer: entry `(i, j)` is `max (∑ₖ h[i,k] · W[k,j] + b[j]) 0`, over 32 input features. -/
def layer1 (h : (⟨2, ![100000, 32]⟩ : Shape).Idx → EReal) (W : (⟨2, ![32, 64]⟩ : Shape).Idx → EReal)
    (b : (⟨1, ![64]⟩ : Shape).Idx → EReal) : (⟨2, ![100000, 64]⟩ : Shape).Idx → EReal :=
  fun i => max ((∑ k : Fin 32, h (ix2 (i 0) k) * W (ix2 k (i 1))) + b (ix1 (i 1))) 0

/-- The second dense layer: entry `(i, j)` is `∑ₖ h[i,k] · W[k,j] + b[j]`, over 64 input features. -/
def layer2 (h : (⟨2, ![100000, 64]⟩ : Shape).Idx → EReal) (W : (⟨2, ![64, 64]⟩ : Shape).Idx → EReal)
    (b : (⟨1, ![64]⟩ : Shape).Idx → EReal) : (⟨2, ![100000, 64]⟩ : Shape).Idx → EReal :=
  fun i => (∑ k : Fin 64, h (ix2 (i 0) k) * W (ix2 k (i 1))) + b (ix1 (i 1))

theorem layer1_apply (h : (⟨2, ![100000, 32]⟩ : Shape).Idx → EReal) (W : (⟨2, ![32, 64]⟩ : Shape).Idx → EReal)
    (b : (⟨1, ![64]⟩ : Shape).Idx → EReal) (p : Fin 100000) (q : Fin 64) :
    layer1 h W b (ix2 p q) = max ((∑ k : Fin 32, h (ix2 p k) * W (ix2 k q)) + b (ix1 q)) 0 := rfl

theorem layer2_apply (h : (⟨2, ![100000, 64]⟩ : Shape).Idx → EReal) (W : (⟨2, ![64, 64]⟩ : Shape).Idx → EReal)
    (b : (⟨1, ![64]⟩ : Shape).Idx → EReal) (p : Fin 100000) (q : Fin 64) :
    layer2 h W b (ix2 p q) = (∑ k : Fin 64, h (ix2 p k) * W (ix2 k q)) + b (ix1 q) := rfl

end Cert.Dense

end
-- ==== Proof.Matmul1.lean ====
/-
  The first layer's product of a block of 20000 rows with the 32 × 64 weights, entry by entry. Over the extended reals
  the product into a zero accumulator is the plain sum over the shared axis: entry `(p, q)` is `∑ₖ x[p,k] · w[k,q]`
  over the 32 input features. The sum the operation is defined by runs over the contraction shape's index; it is carried
  to a sum over `Fin 32` along the one contracted axis, and the two operand indices are read off coordinate by
  coordinate (a free axis keeps the output's coordinate, the contracted axis takes `k`).
-/
import proofs.«156040_j17514876633977_1_alg».proof.Proof.Gen.KernelIdeal
import Idealize.ShloMosaic.Lib.ValueIdx
import Idealize.ShloMosaic.PureOps.Ideal.Laws

noncomputable section

namespace Cert.KernelIdeal.Matmul1

open Cert.KernelIdeal Idealize.ShloMosaic Idealize.ShloMosaic.ValueIdx

/-- The left operand's row coordinate is the output's row. -/
theorem lhs_0 (i : S20000x64.Idx) (q : dot_S20000x32_S32x64_S20000x64_1_0_0_1_n_n.contr.Idx) :
    (dot_S20000x32_S32x64_S20000x64_1_0_0_1_n_n.lhsIdx i q 0).val = (i 0).val := by
  unfold DotDims.lhsIdx
  rw [dif_neg (show ¬(0 : Fin S20000x32.rank) ∈ dot_S20000x32_S32x64_S20000x64_1_0_0_1_n_n.lhsBatch by decide), dif_pos (show (0 : Fin S20000x32.rank) ∈ dot_S20000x32_S32x64_S20000x64_1_0_0_1_n_n.lhsNonContracting by decide)]
  rfl
/-- The left operand's column coordinate is the contraction index. -/
theorem lhs_1 (i : S20000x64.Idx) (q : dot_S20000x32_S32x64_S20000x64_1_0_0_1_n_n.contr.Idx) :
    (dot_S20000x32_S32x64_S20000x64_1_0_0_1_n_n.lhsIdx i q 1).val = (q ⟨0, by decide⟩).val :=
  dot_S20000x32_S32x64_S20000x64_1_0_0_1_n_n.lhsIdx_val_of_single rfl i q
/-- The right operand's row coordinate is the contraction index. -/
theorem rhs_0 (i : S20000x64.Idx) (q : dot_S20000x32_S32x64_S20000x64_1_0_0_1_n_n.contr.Idx) :
    (dot_S20000x32_S32x64_S20000x64_1_0_0_1_n_n.rhsIdx i q 0).val = (q ⟨0, by decide⟩).val :=
  dot_S20000x32_S32x64_S20000x64_1_0_0_1_n_n.rhsIdx_val_of_single rfl i q
/-- The right operand's column coordinate is the output's column. -/
theorem rhs_1 (i : S20000x64.Idx) (q : dot_S20000x32_S32x64_S20000x64_1_0_0_1_n_n.contr.Idx) :
    (dot_S20000x32_S32x64_S20000x64_1_0_0_1_n_n.rhsIdx i q 1).val = (i 1).val := by
  unfold DotDims.rhsIdx
  rw [dif_neg (show ¬(1 : Fin S32x64.rank) ∈ dot_S20000x32_S32x64_S20000x64_1_0_0_1_n_n.rhsBatch by decide), dif_pos (show (1 : Fin S32x64.rank) ∈ dot_S20000x32_S32x64_S20000x64_1_0_0_1_n_n.rhsNonContracting by decide)]
  rfl

/-- The product of a row block with the weights, into zero: entry `(p, q)` is the sum over the shared axis. -/
theorem product_apply (x : FVec Ideal S20000x32 .bf16) (w : FVec Ideal S32x64 .bf16) (p : Fin 20000) (q : Fin 64) :
    matmul dot_S20000x32_S32x64_S20000x64_1_0_0_1_n_n none x w (constant S20000x64 .f32 0x00000000#32) (ix2 p q)
      = ∑ k : Fin 32, x (ix2 p k) * w (ix2 k q) := by
  simp only [matmul]
  rw [Ideal.matmul_constant_zero_apply, ← Equiv.sum_comp (ValueIdx.contrEquiv1 dot_S20000x32_S32x64_S20000x64_1_0_0_1_n_n 32 rfl rfl).symm]
  refine Finset.sum_congr rfl fun k _ => ?_
  have hk := ValueIdx.contrEquiv1_symm_val dot_S20000x32_S32x64_S20000x64_1_0_0_1_n_n 32 rfl rfl k
  have el : dot_S20000x32_S32x64_S20000x64_1_0_0_1_n_n.lhsIdx (ix2 p q) ((ValueIdx.contrEquiv1 dot_S20000x32_S32x64_S20000x64_1_0_0_1_n_n 32 rfl rfl).symm k) = ix2 p k := funext fun a => Fin.ext (by
    match a with
    | ⟨0, _⟩ => exact lhs_0 _ _
    | ⟨1, _⟩ => exact (lhs_1 _ _).trans hk)
  have er : dot_S20000x32_S32x64_S20000x64_1_0_0_1_n_n.rhsIdx (ix2 p q) ((ValueIdx.contrEquiv1 dot_S20000x32_S32x64_S20000x64_1_0_0_1_n_n 32 rfl rfl).symm k) = ix2 k q := funext fun a => Fin.ext (by
    match a with
    | ⟨0, _⟩ => exact (rhs_0 _ _).trans hk
    | ⟨1, _⟩ => exact rhs_1 _ _)
  rw [el, er]

end Cert.KernelIdeal.Matmul1

end
-- ==== Proof.Matmul2.lean ====
/-
  The second layer's product of a block of 20000 rows with the 64 × 64 weights, entry by entry. Over the extended reals
  the product into a zero accumulator is the plain sum over the shared axis: entry `(p, q)` is `∑ₖ x[p,k] · w[k,q]`
  over the 64 input features. The sum the operation is defined by runs over the contraction shape's index; it is carried
  to a sum over `Fin 64` along the one contracted axis, and the two operand indices are read off coordinate by
  coordinate (a free axis keeps the output's coordinate, the contracted axis takes `k`).
-/
import proofs.«156040_j17514876633977_1_alg».proof.Proof.Gen.KernelIdeal
import Idealize.ShloMosaic.Lib.ValueIdx
import Idealize.ShloMosaic.PureOps.Ideal.Laws

noncomputable section

namespace Cert.KernelIdeal.Matmul2

open Cert.KernelIdeal Idealize.ShloMosaic Idealize.ShloMosaic.ValueIdx

/-- The left operand's row coordinate is the output's row. -/
theorem lhs_0 (i : S20000x64.Idx) (q : dot_S20000x64_S64x64_S20000x64_1_0_0_1_n_n.contr.Idx) :
    (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide), dif_pos (show (0 : Fin S20000x64.rank) ∈ dot_S20000x64_S64x64_S20000x64_1_0_0_1_n_n.lhsNonContracting by decide)]
  rfl
/-- The left operand's column coordinate is the contraction index. -/
theorem lhs_1 (i : S20000x64.Idx) (q : dot_S20000x64_S64x64_S20000x64_1_0_0_1_n_n.contr.Idx) :
    (dot_S20000x64_S64x64_S20000x64_1_0_0_1_n_n.lhsIdx i q 1).val = (q ⟨0, by decide⟩).val :=
  dot_S20000x64_S64x64_S20000x64_1_0_0_1_n_n.lhsIdx_val_of_single rfl i q
/-- The right operand's row coordinate is the contraction index. -/
theorem rhs_0 (i : S20000x64.Idx) (q : dot_S20000x64_S64x64_S20000x64_1_0_0_1_n_n.contr.Idx) :
    (dot_S20000x64_S64x64_S20000x64_1_0_0_1_n_n.rhsIdx i q 0).val = (q ⟨0, by decide⟩).val :=
  dot_S20000x64_S64x64_S20000x64_1_0_0_1_n_n.rhsIdx_val_of_single rfl i q
/-- The right operand's column coordinate is the output's column. -/
theorem rhs_1 (i : S20000x64.Idx) (q : dot_S20000x64_S64x64_S20000x64_1_0_0_1_n_n.contr.Idx) :
    (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide), dif_pos (show (1 : Fin S64x64.rank) ∈ dot_S20000x64_S64x64_S20000x64_1_0_0_1_n_n.rhsNonContracting by decide)]
  rfl

/-- The product of a row block with the weights, into zero: entry `(p, q)` is the sum over the shared axis. -/
theorem product_apply (x : FVec Ideal S20000x64 .bf16) (w : FVec Ideal S64x64 .bf16) (p : Fin 20000) (q : Fin 64) :
    matmul dot_S20000x64_S64x64_S20000x64_1_0_0_1_n_n none x w (constant S20000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S20000x64_S64x64_S20000x64_1_0_0_1_n_n 64 rfl rfl).symm]
  refine Finset.sum_congr rfl fun k _ => ?_
  have hk := ValueIdx.contrEquiv1_symm_val dot_S20000x64_S64x64_S20000x64_1_0_0_1_n_n 64 rfl rfl k
  have el : dot_S20000x64_S64x64_S20000x64_1_0_0_1_n_n.lhsIdx (ix2 p q) ((ValueIdx.contrEquiv1 dot_S20000x64_S64x64_S20000x64_1_0_0_1_n_n 64 rfl rfl).symm k) = ix2 p k := funext fun a => Fin.ext (by
    match a with
    | ⟨0, _⟩ => exact lhs_0 _ _
    | ⟨1, _⟩ => exact (lhs_1 _ _).trans hk)
  have er : dot_S20000x64_S64x64_S20000x64_1_0_0_1_n_n.rhsIdx (ix2 p q) ((ValueIdx.contrEquiv1 dot_S20000x64_S64x64_S20000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

end Cert.KernelIdeal.Matmul2

end
-- ==== Proof.Step.lean ====
/-
  One grid step of each dense layer, entry by entry. A step holds 20000 rows of the layer's input, the whole weight
  matrix and the bias as a one-row matrix. Over the extended reals the narrowing of both factors to bfloat16 is the
  identity, so entry `(p, q)` of what the step stores is `∑ₖ x[p,k] · w[k,q] + b[0,q]` — and in the first layer the
  maximum of that with zero. Where the step's row block holds row `i 0` of an array `H` at its row `p`, its weights
  are `W` and its bias row is `B`, that entry is the layer's entry `i`.
-/
import proofs.«156040_j17514876633977_1_alg».proof.Proof.Gen.KernelIdeal.Skeleton
import proofs.«156040_j17514876633977_1_alg».proof.Proof.Dense
import proofs.«156040_j17514876633977_1_alg».proof.Proof.Matmul1
import proofs.«156040_j17514876633977_1_alg».proof.Proof.Matmul2
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Step

open Cert.KernelIdeal Cert.KernelIdeal.Gen Idealize.ShloMosaic Idealize.ShloMosaic.ValueIdx

/-! ## The first layer's step -/

/-- The first layer's stored block: `max (x · w + b) 0`, entry by entry. -/
theorem layer1_step (x0 : Vec Ideal S20000x32 .f32) (x1 : Vec Ideal S32x64 .f32) (x2 : Vec Ideal S1x64 .f32)
    (p : Fin 20000) (q : Fin 64) :
    k0_pay1 (F := Ideal) x0 x1 x2 (ix2 p q)
      = max ((∑ k : Fin 32, x0 (ix2 p k) * x1 (ix2 k q)) + x2 (ix2 (0 : Fin 1) q)) 0 := by
  unfold k0_pay1
  rw [maximumf_apply, addf_apply, broadcast_apply, Matmul1.product_apply, broadcastTo_1b_ab_apply]
  simp only [truncf_apply, shapeCast_self]
  exact congrArg (max _) Ideal.ofBits_zero_f32

/-- A step whose row block holds row `i 0` of `H` at its row `p`, whose weights read `W` and whose bias row reads `B`,
    stores at `(p, q)` the first layer's entry `i` of `H`, `W` and `B`'s one row. -/
theorem layer1_block (H : S100000x32.Idx → EReal) (W : S32x64.Idx → EReal) (B : S1x64.Idx → EReal)
    (x0 : Vec Ideal S20000x32 .f32) (x1 : Vec Ideal S32x64 .f32) (x2 : Vec Ideal S1x64 .f32)
    (p : Fin 20000) (q : Fin 64) (i : S100000x64.Idx)
    (h0 : ∀ k : Fin 32, x0 (ix2 p k) = H (ix2 (i 0) k))
    (h1 : ∀ k : Fin 32, x1 (ix2 k q) = W (ix2 k (i 1)))
    (h2 : x2 (ix2 (0 : Fin 1) q) = B (ix2 (0 : Fin 1) (i 1))) :
    k0_pay1 (F := Ideal) x0 x1 x2 (ix2 p q) = Cert.Dense.layer1 H W (fun j => B (ix2 (0 : Fin 1) (j 0))) i := by
  rw [layer1_step]
  show _ = max ((∑ k : Fin 32, H (ix2 (i 0) k) * W (ix2 k (i 1))) + B (ix2 (0 : Fin 1) (i 1))) 0
  rw [h2]
  exact congrArg (fun s => max (s + B (ix2 (0 : Fin 1) (i 1))) 0) (Finset.sum_congr rfl fun k _ => by rw [h0 k, h1 k])

/-! ## The second layer's step -/

/-- The second layer's stored block: `x · w + b`, entry by entry. -/
theorem layer2_step (x0 : Vec Ideal S20000x64 .f32) (x1 : Vec Ideal S64x64 .f32) (x2 : Vec Ideal S1x64 .f32)
    (p : Fin 20000) (q : Fin 64) :
    k1_pay1 (F := Ideal) x0 x1 x2 (ix2 p q)
      = (∑ k : Fin 64, x0 (ix2 p k) * x1 (ix2 k q)) + x2 (ix2 (0 : Fin 1) q) := by
  unfold k1_pay1
  rw [addf_apply, Matmul2.product_apply, broadcastTo_1b_ab_apply]
  simp only [truncf_apply, shapeCast_self]

/-- The same for the second layer, which takes no maximum. -/
theorem layer2_block (H : S100000x64.Idx → EReal) (W : S64x64.Idx → EReal) (B : S1x64.Idx → EReal)
    (x0 : Vec Ideal S20000x64 .f32) (x1 : Vec Ideal S64x64 .f32) (x2 : Vec Ideal S1x64 .f32)
    (p : Fin 20000) (q : Fin 64) (i : S100000x64.Idx)
    (h0 : ∀ k : Fin 64, x0 (ix2 p k) = H (ix2 (i 0) k))
    (h1 : ∀ k : Fin 64, x1 (ix2 k q) = W (ix2 k (i 1)))
    (h2 : x2 (ix2 (0 : Fin 1) q) = B (ix2 (0 : Fin 1) (i 1))) :
    k1_pay1 (F := Ideal) x0 x1 x2 (ix2 p q) = Cert.Dense.layer2 H W (fun j => B (ix2 (0 : Fin 1) (j 0))) i := by
  rw [layer2_step]
  show _ = (∑ k : Fin 64, H (ix2 (i 0) k) * W (ix2 k (i 1))) + B (ix2 (0 : Fin 1) (i 1))
  rw [h2]
  exact congrArg (fun s => s + B (ix2 (0 : Fin 1) (i 1))) (Finset.sum_congr rfl fun k _ => by rw [h0 k, h1 k])

end Cert.KernelIdeal.Step

end
-- ==== Proof.Out1.lean ====
/-
  What the first dense layer's pallas_call leaves in its output array, as one function of the arrays it is entered
  with. The grid has five steps; step `t` reads rows `t·20000 … t·20000 + 19999` of the input array, the whole weight
  array and the bias row, and writes back rows `t·20000 …` of the output. Each step's block is the layer's function
  restricted to those rows (the step lemma), the five blocks tile the 100000 rows, so after the last write-back the
  output array IS the layer's function of the input array, the weights and the bias row.
-/
import proofs.«156040_j17514876633977_1_alg».proof.Proof.Gen.KernelIdeal.Frame
import proofs.«156040_j17514876633977_1_alg».proof.Proof.Dense
import proofs.«156040_j17514876633977_1_alg».proof.Proof.Step
import Idealize.ShloMosaic.Lib.Pipeline.Value
import Idealize.ShloMosaic.Lib.ValueIdx

set_option maxRecDepth 16384

noncomputable section

namespace Cert.KernelIdeal.Out1

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when the pallas_call is entered
variable (V : (c : Dev nD) → (b : Ref sig .tc) → Buf (Elt Ideal) ((c : Thread nD τ).loc b))

theorem origin : (![0, 0] : Fin 2 → Nat) = fun _ => 0 := funext fun a => by fin_cases a <;> rfl

/-- Where step `t`'s blocks sit: the input's and the output's at block row `t`, the weights' and the bias row's at the
    one block there is (decided over the five steps). -/
theorem block_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The function the output array ends at: the layer of the entry contents of the input array, the weights and the
    bias row. -/
abbrev result (c : Dev nD) : S100000x64.Idx → EReal :=
  Cert.Dense.layer1 (V c main_v29) (V c main_arg4) (fun j => V c main_v30 (ix2 (0 : Fin 1) (j 0)))

/-- What step `t` writes back is block `t` of that function. -/
theorem written (c : Dev nD) (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero origin]
  simp only [View.ld_unit_zero (S := S20000x32) origin, View.ld_unit_zero (S := S32x64) origin, View.ld_unit_zero (S := S1x64) origin]
  obtain ⟨a0, a1, w0, w1, b0, b1, o0, o1⟩ := block_at t
  funext j
  obtain ⟨p, q, rfl⟩ : ∃ (p : Fin 20000) (q : Fin 64), j = ix2 p q := ⟨j 0, j 1, eq_ix2 j⟩
  refine Step.layer1_block (V c main_v29) (V c main_arg4) (V c main_v30) (iblk0 V c 0 t) (iblk0 V c 1 t) (iblk0 V c 2 t) p q
    (((cfg0.win 3).blk t).view.emb (ix2 p q)) (fun k => ?_) (fun k => ?_) ?_
  · show V c main_v29 (((cfg0.win 0).blk t).view.emb (ix2 p k)) = V c main_v29 (ix2 ((((cfg0.win 3).blk t).view.emb (ix2 p q)) 0) k)
    refine congrArg (V c main_v29) (funext fun a => Fin.ext ?_)
    match a with
    | ⟨0, _⟩ => show win0_0.index t (0 : Fin 2) * 20000 + 1 * p.val = win0_3.index t (0 : Fin 2) * 20000 + 1 * p.val; omega
    | ⟨1, _⟩ => show win0_0.index t (1 : Fin 2) * 32 + 1 * k.val = k.val; omega
  · show V c main_arg4 (((cfg0.win 1).blk t).view.emb (ix2 k q)) = V c main_arg4 (ix2 k ((((cfg0.win 3).blk t).view.emb (ix2 p q)) 1))
    refine congrArg (V c main_arg4) (funext fun a => Fin.ext ?_)
    match a with
    | ⟨0, _⟩ => show win0_1.index t (0 : Fin 2) * 32 + 1 * k.val = k.val; omega
    | ⟨1, _⟩ => show win0_1.index t (1 : Fin 2) * 64 + 1 * q.val = win0_3.index t (1 : Fin 2) * 64 + 1 * q.val; omega
  · show V c main_v30 (((cfg0.win 2).blk t).view.emb (ix2 (0 : Fin 1) q)) = V c main_v30 (ix2 (0 : Fin 1) ((((cfg0.win 3).blk t).view.emb (ix2 p q)) 1))
    refine congrArg (V c main_v30) (funext fun a => Fin.ext ?_)
    match a with
    | ⟨0, _⟩ => show win0_2.index t (0 : Fin 2) * 1 + 1 * 0 = 0; omega
    | ⟨1, _⟩ => show win0_2.index t (1 : Fin 2) * 64 + 1 * q.val = win0_3.index t (1 : Fin 2) * 64 + 1 * q.val; omega

/-- An index of the output array is in step `t`'s block iff each coordinate is in the block's range on its axis. -/
theorem mem_block (t : Fin cfg0.N) (i : S100000x64.Idx) :
    i ∈ ((cfg0.win 3).blk t).view.set ↔ ∀ a : Fin 2, win0_3.index t a * S20000x64.size a ≤ (i a).val ∧ (i a).val < win0_3.index t a * S20000x64.size a + S20000x64.size a := by
  show i ∈ ((View.whole main_v31).slice (win0_3.rect t)).set ↔ _
  rw [View.set_slice_whole, Rect.mem_set_unit]
  exact Iff.rfl

/-- The five blocks tile the rows: row `r` is in the block of step `r / 20000`. -/
theorem tiled (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 5 := N_0
  refine ⟨⟨(i 0).val / 20000, by omega⟩, flush0_3 _, ?_⟩
  rw [mem_block]
  obtain ⟨-, -, -, -, -, -, o0, o1⟩ := block_at ⟨(i 0).val / 20000, by omega⟩
  intro a
  match a with
  | ⟨0, _⟩ =>
    show win0_3.index ⟨(i 0).val / 20000, _⟩ (0 : Fin 2) * 20000 ≤ (i 0).val ∧ (i 0).val < win0_3.index ⟨(i 0).val / 20000, _⟩ (0 : Fin 2) * 20000 + 20000
    rw [o0]; show (i 0).val / 20000 * 20000 ≤ (i 0).val ∧ (i 0).val < (i 0).val / 20000 * 20000 + 20000; omega
  | ⟨1, _⟩ =>
    show win0_3.index ⟨(i 0).val / 20000, _⟩ (1 : Fin 2) * 64 ≤ (i 1).val ∧ (i 1).val < win0_3.index ⟨(i 0).val / 20000, _⟩ (1 : Fin 2) * 64 + 64
    rw [o1]; omega

/-- The output array after the pallas_call is the layer's function of the entry contents. -/
theorem final (c : Dev nD) : (dat0 V c).arrAt 3 cfg0.N = result V c :=
  (dat0 V c).arrAt_eq_of_cover 3 (result V c) (fun t _ => written V c t) (tiled)

end Cert.KernelIdeal.Out1

end
-- ==== Proof.Out2.lean ====
/-
  What the second dense layer's pallas_call leaves in its output array, as one function of the arrays it is entered
  with. The grid has five steps; step `t` reads rows `t·20000 … t·20000 + 19999` of the input array, the whole weight
  array and the bias row, and writes back rows `t·20000 …` of the output. Each step's block is the layer's function
  restricted to those rows (the step lemma), the five blocks tile the 100000 rows, so after the last write-back the
  output array IS the layer's function of the input array, the weights and the bias row.
-/
import proofs.«156040_j17514876633977_1_alg».proof.Proof.Gen.KernelIdeal.Frame
import proofs.«156040_j17514876633977_1_alg».proof.Proof.Dense
import proofs.«156040_j17514876633977_1_alg».proof.Proof.Step
import Idealize.ShloMosaic.Lib.Pipeline.Value
import Idealize.ShloMosaic.Lib.ValueIdx

set_option maxRecDepth 16384

noncomputable section

namespace Cert.KernelIdeal.Out2

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when the pallas_call is entered
variable (V : (c : Dev nD) → (b : Ref sig .tc) → Buf (Elt Ideal) ((c : Thread nD τ).loc b))

theorem origin : (![0, 0] : Fin 2 → Nat) = fun _ => 0 := funext fun a => by fin_cases a <;> rfl

/-- Where step `t`'s blocks sit: the input's and the output's at block row `t`, the weights' and the bias row's at the
    one block there is (decided over the five steps). -/
theorem block_at : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The function the output array ends at: the layer of the entry contents of the input array, the weights and the
    bias row. -/
abbrev result (c : Dev nD) : S100000x64.Idx → EReal :=
  Cert.Dense.layer2 (V c main_v61) (V c main_arg6) (fun j => V c main_v62 (ix2 (0 : Fin 1) (j 0)))

/-- What step `t` writes back is block `t` of that function. -/
theorem written (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero origin]
  simp only [View.ld_unit_zero (S := S20000x64) origin, View.ld_unit_zero (S := S64x64) origin, View.ld_unit_zero (S := S1x64) origin]
  obtain ⟨a0, a1, w0, w1, b0, b1, o0, o1⟩ := block_at t
  funext j
  obtain ⟨p, q, rfl⟩ : ∃ (p : Fin 20000) (q : Fin 64), j = ix2 p q := ⟨j 0, j 1, eq_ix2 j⟩
  refine Step.layer2_block (V c main_v61) (V c main_arg6) (V c main_v62) (iblk1 V c 0 t) (iblk1 V c 1 t) (iblk1 V c 2 t) p q
    (((cfg1.win 3).blk t).view.emb (ix2 p q)) (fun k => ?_) (fun k => ?_) ?_
  · show V c main_v61 (((cfg1.win 0).blk t).view.emb (ix2 p k)) = V c main_v61 (ix2 ((((cfg1.win 3).blk t).view.emb (ix2 p q)) 0) k)
    refine congrArg (V c main_v61) (funext fun a => Fin.ext ?_)
    match a with
    | ⟨0, _⟩ => show win1_0.index t (0 : Fin 2) * 20000 + 1 * p.val = win1_3.index t (0 : Fin 2) * 20000 + 1 * p.val; omega
    | ⟨1, _⟩ => show win1_0.index t (1 : Fin 2) * 64 + 1 * k.val = k.val; omega
  · show V c main_arg6 (((cfg1.win 1).blk t).view.emb (ix2 k q)) = V c main_arg6 (ix2 k ((((cfg1.win 3).blk t).view.emb (ix2 p q)) 1))
    refine congrArg (V c main_arg6) (funext fun a => Fin.ext ?_)
    match a with
    | ⟨0, _⟩ => show win1_1.index t (0 : Fin 2) * 64 + 1 * k.val = k.val; omega
    | ⟨1, _⟩ => show win1_1.index t (1 : Fin 2) * 64 + 1 * q.val = win1_3.index t (1 : Fin 2) * 64 + 1 * q.val; omega
  · show V c main_v62 (((cfg1.win 2).blk t).view.emb (ix2 (0 : Fin 1) q)) = V c main_v62 (ix2 (0 : Fin 1) ((((cfg1.win 3).blk t).view.emb (ix2 p q)) 1))
    refine congrArg (V c main_v62) (funext fun a => Fin.ext ?_)
    match a with
    | ⟨0, _⟩ => show win1_2.index t (0 : Fin 2) * 1 + 1 * 0 = 0; omega
    | ⟨1, _⟩ => show win1_2.index t (1 : Fin 2) * 64 + 1 * q.val = win1_3.index t (1 : Fin 2) * 64 + 1 * q.val; omega

/-- An index of the output array is in step `t`'s block iff each coordinate is in the block's range on its axis. -/
theorem mem_block (t : Fin cfg1.N) (i : S100000x64.Idx) :
    i ∈ ((cfg1.win 3).blk t).view.set ↔ ∀ a : Fin 2, win1_3.index t a * S20000x64.size a ≤ (i a).val ∧ (i a).val < win1_3.index t a * S20000x64.size a + S20000x64.size a := by
  show i ∈ ((View.whole main_v63).slice (win1_3.rect t)).set ↔ _
  rw [View.set_slice_whole, Rect.mem_set_unit]
  exact Iff.rfl

/-- The five blocks tile the rows: row `r` is in the block of step `r / 20000`. -/
theorem tiled (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 5 := N_1
  refine ⟨⟨(i 0).val / 20000, by omega⟩, flush1_3 _, ?_⟩
  rw [mem_block]
  obtain ⟨-, -, -, -, -, -, o0, o1⟩ := block_at ⟨(i 0).val / 20000, by omega⟩
  intro a
  match a with
  | ⟨0, _⟩ =>
    show win1_3.index ⟨(i 0).val / 20000, _⟩ (0 : Fin 2) * 20000 ≤ (i 0).val ∧ (i 0).val < win1_3.index ⟨(i 0).val / 20000, _⟩ (0 : Fin 2) * 20000 + 20000
    rw [o0]; show (i 0).val / 20000 * 20000 ≤ (i 0).val ∧ (i 0).val < (i 0).val / 20000 * 20000 + 20000; omega
  | ⟨1, _⟩ =>
    show win1_3.index ⟨(i 0).val / 20000, _⟩ (1 : Fin 2) * 64 ≤ (i 1).val ∧ (i 1).val < win1_3.index ⟨(i 0).val / 20000, _⟩ (1 : Fin 2) * 64 + 64
    rw [o1]; omega

/-- The output array after the pallas_call is the layer's function of the entry contents. -/
theorem final (c : Dev nD) : (dat1 V c).arrAt 3 cfg1.N = result V c :=
  (dat1 V c).arrAt_eq_of_cover 3 (result V c) (fun t _ => written V c t) (tiled)

end Cert.KernelIdeal.Out2

end
-- ==== Proof.Glue.lean ====
/-
  The kernel program's result array as one function of its argument arrays.

  Between the launch and the first pallas_call the host propagates the node features twice along the edges and lays the
  first bias out as a one-row matrix; between the two pallas_calls it propagates the first layer's output twice and lays
  out the second bias. One propagation (`spread32`, `spread64`: 32 or 64 features) gathers the source rows (a negative
  source index wrapped by the number of nodes), scales each by half its edge weight and scatter-adds into the target
  rows of a zero array; it is carried here as one function and never opened. Reading each host stretch back operation
  by operation gives the arrays each pallas_call is entered with, each pallas_call leaves its layer's function of those
  (Out1, Out2), and a bias laid out as a one-row matrix reads back, at row 0, as the bias. So the result array is
  `layer2 (spread64² (layer1 (spread32² x) W₁ b₁)) W₂ b₂`.
-/
import proofs.«156040_j17514876633977_1_alg».proof.Proof.Gen.KernelIdeal.Frame
import proofs.«156040_j17514876633977_1_alg».proof.Proof.Dense
import proofs.«156040_j17514876633977_1_alg».proof.Proof.Out1
import proofs.«156040_j17514876633977_1_alg».proof.Proof.Out2
import Idealize.ShloMosaic.Lib.StableHlo.Run
import Idealize.ShloMosaic.Lib.ValueLayout
import Idealize.ShloMosaic.Lib.ValueIdx

set_option maxRecDepth 16384

noncomputable section

namespace Cert.KernelIdeal.Glue

open Cert.KernelIdeal Cert.KernelIdeal.Gen Idealize.ShloMosaic Idealize.ShloMosaic.TcCoe Idealize.SL.Sem Idealize.ShloMosaic.StableHlo
open Idealize.ShloMosaic.ValueIdx

/-! ## One propagation along the edges, as one function -/

section Spread
variable {F : FTy → Type} [FloatOps F]

/-- The source index of every edge as a column, a negative index wrapped by the number of nodes. -/
def sources (ec : (⟨S1600000, .i32⟩ : BufTy).Contents (Elt F)) : (⟨S1600000x1, .i32⟩ : BufTy).Contents (Elt F) :=
  broadcastInDim S1600000x1 ![0] bcast_S1600000_S1600000x1_0
    (select (cmpi .slt ec (broadcastInDim S1600000 ![] bcast_S_S1600000 (constantI S_ 32 0#32)))
      (addi ec (broadcastInDim S1600000 ![] bcast_S_S1600000 (constantI S_ 32 100000#32))) ec)

/-- Half of every edge weight, as a column. -/
def halves (ev : (⟨S1600000, .f32⟩ : BufTy).Contents (Elt F)) : (⟨S1600000x1, .f32⟩ : BufTy).Contents (Elt F) :=
  broadcastInDim S1600000x1 ![0] bcast_S1600000_S1600000x1_0
    (mulf (broadcastInDim S1600000 ![] bcast_S_S1600000 (constant S_ .f32 0x3F000000#32)) ev)

/-- One propagation of 32-feature rows: gather the source rows, scale by half the edge weight, scatter-add into the
    target rows of a zero array. -/
def spread32 (ev : (⟨S1600000, .f32⟩ : BufTy).Contents (Elt F)) (er ec : (⟨S1600000, .i32⟩ : BufTy).Contents (Elt F))
    (h : (⟨S100000x32, .f32⟩ : BufTy).Contents (Elt F)) : (⟨S100000x32, .f32⟩ : BufTy).Contents (Elt F) :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 er)
    (mulf (broadcastInDim S1600000x32 ![0, 1] bcast_S1600000x1_S1600000x32_0_1 (halves ev))
      (Host.gather gather_S100000x32_S1600000x1_S1600000x32_1_0_n_n_0_1_132 h (sources ec)))

/-- The same over 64-feature rows. -/
def spread64 (ev : (⟨S1600000, .f32⟩ : BufTy).Contents (Elt F)) (er ec : (⟨S1600000, .i32⟩ : BufTy).Contents (Elt F))
    (h : (⟨S100000x64, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 er)
    (mulf (broadcastInDim S1600000x64 ![0, 1] bcast_S1600000x1_S1600000x64_0_1 (halves ev))
      (Host.gather gather_S100000x64_S1600000x1_S1600000x64_1_0_n_n_0_1_164 h (sources ec)))

end Spread

/-- A bias laid out as a one-row matrix reads back, at row 0, as the bias. -/
theorem bias_row {α : Type} (b : S64.Idx → α) (h : S64.ShapeCasts S1x64) :
    (fun j : S64.Idx => shapeCast S1x64 b h (ix2 (0 : Fin 1) (j 0))) = b :=
  funext fun j => (shapeCast_a_1a_apply b h 0 (j 0)).trans (congrArg b (eq_ix1 j).symm)

variable (m : (ℓ : Loc nD τ sig) → Buf (Elt Ideal) ℓ) (ρ : Dev nD → PrngReg)

/-! ## The first host stretch: what the first pallas_call is entered with -/

theorem entry1_weights (c : Dev nD) : V1 m ρ c main_arg4 = m ((c : Thread nD τ).loc main_arg4) := by
  show StableHlo.after hostOps0 (W0 m ρ c) (Proc.devRef .tc main_arg4) = _
  after_results_simp

theorem entry1_bias (c : Dev nD) :
    V1 m ρ c main_v30 = shapeCast S1x64 (m ((c : Thread nD τ).loc main_arg5)) shapeCasts_S64_S1x64 := by
  show StableHlo.after hostOps0 (W0 m ρ c) (Proc.devRef .tc main_v30) = _
  after_results_simp
  rfl

theorem entry1_input (c : Dev nD) :
    V1 m ρ c main_v29 = spread32 (m ((c : Thread nD τ).loc main_arg1)) (m ((c : Thread nD τ).loc main_arg2)) (m ((c : Thread nD τ).loc main_arg3))
      (spread32 (m ((c : Thread nD τ).loc main_arg1)) (m ((c : Thread nD τ).loc main_arg2)) (m ((c : Thread nD τ).loc main_arg3))
        (m ((c : Thread nD τ).loc main_arg0))) := by
  show StableHlo.after hostOps0 (W0 m ρ c) (Proc.devRef .tc main_v29) = _
  after_results_simp
  rfl

/-! ## The arguments the second host stretch reads are still as launched at the first pallas_call's exit -/

theorem exit1_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results_simp)
theorem exit1_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results_simp)
theorem exit1_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results_simp)
theorem exit1_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp)
theorem exit1_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp)

/-- The first layer's output array at the first pallas_call's exit: the layer of the propagated features. -/
theorem exit1_output (c : Dev nD) :
    W2 m ρ c (Proc.devRef .tc main_v31) = Cert.Dense.layer1
      (spread32 (m ((c : Thread nD τ).loc main_arg1)) (m ((c : Thread nD τ).loc main_arg2)) (m ((c : Thread nD τ).loc main_arg3))
        (spread32 (m ((c : Thread nD τ).loc main_arg1)) (m ((c : Thread nD τ).loc main_arg2)) (m ((c : Thread nD τ).loc main_arg3))
          (m ((c : Thread nD τ).loc main_arg0))))
      (m ((c : Thread nD τ).loc main_arg4)) (m ((c : Thread nD τ).loc main_arg5)) := by
  refine (W2_arr m ρ c 3).trans ((Out1.final (V1 m ρ) c).trans ?_)
  unfold Out1.result
  rw [entry1_input, entry1_weights, entry1_bias, bias_row]

/-! ## The second host stretch: what the second pallas_call is entered with -/

theorem entry2_weights (c : Dev nD) : V3 m ρ c main_arg6 = m ((c : Thread nD τ).loc main_arg6) := by
  show StableHlo.after hostOps1 (W2 m ρ c) (Proc.devRef .tc main_arg6) = _
  after_results_simp
  exact exit1_arg6 m ρ c

theorem entry2_bias (c : Dev nD) :
    V3 m ρ c main_v62 = shapeCast S1x64 (m ((c : Thread nD τ).loc main_arg7)) shapeCasts_S64_S1x64 := by
  show StableHlo.after hostOps1 (W2 m ρ c) (Proc.devRef .tc main_v62) = _
  after_results_simp
  rw [exit1_arg7]
  rfl

theorem entry2_input (c : Dev nD) :
    V3 m ρ c main_v61 = spread64 (m ((c : Thread nD τ).loc main_arg1)) (m ((c : Thread nD τ).loc main_arg2)) (m ((c : Thread nD τ).loc main_arg3))
      (spread64 (m ((c : Thread nD τ).loc main_arg1)) (m ((c : Thread nD τ).loc main_arg2)) (m ((c : Thread nD τ).loc main_arg3))
        (W2 m ρ c (Proc.devRef .tc main_v31))) := by
  show StableHlo.after hostOps1 (W2 m ρ c) (Proc.devRef .tc main_v61) = _
  after_results_simp
  rw [exit1_arg1, exit1_arg2, exit1_arg3]
  rfl

/-! ## The result array -/

/-- The kernel program's result as one function of its arguments. -/
def value (x : (⟨S100000x32, .f32⟩ : BufTy).Contents (Elt Ideal)) (ev : (⟨S1600000, .f32⟩ : BufTy).Contents (Elt Ideal))
    (er ec : (⟨S1600000, .i32⟩ : BufTy).Contents (Elt Ideal)) (w1 : (⟨S32x64, .f32⟩ : BufTy).Contents (Elt Ideal))
    (b1 : (⟨S64, .f32⟩ : BufTy).Contents (Elt Ideal)) (w2 : (⟨S64x64, .f32⟩ : BufTy).Contents (Elt Ideal))
    (b2 : (⟨S64, .f32⟩ : BufTy).Contents (Elt Ideal)) : (⟨S100000x64, .f32⟩ : BufTy).Contents (Elt Ideal) :=
  Cert.Dense.layer2 (spread64 ev er ec (spread64 ev er ec (Cert.Dense.layer1 (spread32 ev er ec (spread32 ev er ec x)) w1 b1))) w2 b2

/-- At the last segment boundary the result array holds that function of the launch contents of the arguments. -/
theorem result_eq (c : Dev nD) :
    W4 m ρ c (Proc.devRef .tc main_v63) = value (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (W4_arr m ρ c 3).trans ((Out2.final (V3 m ρ) c).trans ?_)
  unfold Out2.result value
  rw [entry2_input, entry2_weights, entry2_bias, bias_row, exit1_output]

end Cert.KernelIdeal.Glue

end
-- ==== Proof.RefLayers.lean ====
/-
  The reference program's result as one function of its arguments, stage by stage. Its first dense stage — the
  product with the first weights over the 32 input features, plus the bias broadcast over the rows, then the maximum
  with zero — is the first layer's function of the twice-propagated features; its last stage — the product with the
  second weights over 64 features plus the second bias — is the second layer's function of what the two propagations
  in between make of the first layer's output. Both read entry by entry: a product's entry `(p, q)` is the sum over the
  shared axis, a bias broadcast reads entry `q` of the bias.
-/
import proofs.«156040_j17514876633977_1_alg».proof.Proof.Gen.ReferenceIdeal.Read
import proofs.«156040_j17514876633977_1_alg».proof.Proof.Dense
import Idealize.ShloMosaic.Lib.ValueIdx
import Idealize.ShloMosaic.PureOps.Ideal.Laws

noncomputable section

namespace Cert.ReferenceIdeal.Layers

open Cert.ReferenceIdeal Cert.ReferenceIdeal.Read Idealize.ShloMosaic Idealize.ShloMosaic.ValueIdx

variable (x0 : (⟨S100000x32, .f32⟩ : BufTy).Contents (Elt Ideal)) (x1 : (⟨S1600000, .f32⟩ : BufTy).Contents (Elt Ideal))
  (x2 x3 : (⟨S1600000, .i32⟩ : BufTy).Contents (Elt Ideal)) (x4 : (⟨S32x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal))

/-- The reference's first dense stage is the first layer of the twice-propagated features. -/
theorem first_dense :
    val_main_v34 (F := Ideal) x0 x1 x2 x3 x4 x5 = Cert.Dense.layer1 (val_main_v29 (F := Ideal) x0 x1 x2 x3) x4 x5 := by
  funext i
  obtain ⟨p, q, rfl⟩ : ∃ (p : Fin 100000) (q : Fin 64), i = ix2 p q := ⟨i 0, i 1, eq_ix2 i⟩
  rw [val_main_v34_apply, val_main_v33_apply, val_main_v30_apply, val_main_v32_apply, val_main_v31_apply,
    val_main_call0_v0_apply, val_main_call0_cst_apply, Cert.Dense.layer1_apply]
  have el : ∀ k : Fin 32, lidx_main_v30 (ix2 p q) k = ix2 p k := fun k => funext fun a => Fin.ext (by
    match a with
    | ⟨0, _⟩ => rfl
    | ⟨1, _⟩ => rfl)
  have er : ∀ k : Fin 32, ridx_main_v30 (ix2 p q) k = ix2 k q := fun k => funext fun a => Fin.ext (by
    match a with
    | ⟨0, _⟩ => rfl
    | ⟨1, _⟩ => rfl)
  have eb : idx_main_v31 (idx_main_v32 (ix2 p q)) = ix1 q := funext fun a => Fin.ext (by
    match a with
    | ⟨0, _⟩ => rfl)
  simp only [el, er, eb]
  exact congrArg (max _) Ideal.ofBits_zero_f32

/-- The reference's last stage is the second layer of the twice-propagated first-layer output. -/
theorem second_dense :
    val_main_v68 (F := Ideal) x0 x1 x2 x3 x4 x5 x6 x7 = Cert.Dense.layer2 (val_main_v64 (F := Ideal) x0 x1 x2 x3 x4 x5) x6 x7 := by
  funext i
  obtain ⟨p, q, rfl⟩ : ∃ (p : Fin 100000) (q : Fin 64), i = ix2 p q := ⟨i 0, i 1, eq_ix2 i⟩
  rw [val_main_v68_apply, val_main_v65_apply, val_main_v67_apply, val_main_v66_apply, Cert.Dense.layer2_apply]
  have el : ∀ k : Fin 64, lidx_main_v65 (ix2 p q) k = ix2 p k := fun k => funext fun a => Fin.ext (by
    match a with
    | ⟨0, _⟩ => rfl
    | ⟨1, _⟩ => rfl)
  have er : ∀ k : Fin 64, ridx_main_v65 (ix2 p q) k = ix2 k q := fun k => funext fun a => Fin.ext (by
    match a with
    | ⟨0, _⟩ => rfl
    | ⟨1, _⟩ => rfl)
  have eb : idx_main_v66 (idx_main_v67 (ix2 p q)) = ix1 q := funext fun a => Fin.ext (by
    match a with
    | ⟨0, _⟩ => rfl)
  simp only [el, er, eb]
  rfl

end Cert.ReferenceIdeal.Layers

end
-- ==== Proof.lean ====
/-
  Two dense layers over features propagated along the edges of a graph, against the same network written in jnp.

  Both programs propagate the node features twice along the edges (gather the source rows, scale by half the edge
  weight, scatter-add into the target rows), apply `relu (h W₁ + b₁)`, propagate twice again and apply `h W₂ + b₂`. The
  kernel program computes the two dense layers in pallas_calls over blocks of 20000 rows, with both factors narrowed to
  bfloat16 before a product into a zero accumulator; the reference computes them as whole-array products on the host.
  Over the extended reals the narrowing is the identity and both products are the plain sum over the shared axis, so each
  pallas_call leaves its layer's function of the arrays it is entered with, row block by row block; the propagations are
  the same host computation in both programs and are carried as one function, never opened. Both results are
  `layer2 (spread64² (layer1 (spread32² x) W₁ b₁)) W₂ b₂` of the arguments, entry by entry, and no law beyond reading
  each operation at an index is needed: the precondition is not used.
-/
import proofs.«156040_j17514876633977_1_alg».proof.Defs
import proofs.«156040_j17514876633977_1_alg».proof.Proof.Gen.Kernel
import proofs.«156040_j17514876633977_1_alg».proof.Proof.Gen.Kernel.Frame
import proofs.«156040_j17514876633977_1_alg».proof.Proof.Gen.KernelIdeal
import proofs.«156040_j17514876633977_1_alg».proof.Proof.Gen.KernelIdeal.Frame
import proofs.«156040_j17514876633977_1_alg».proof.Proof.Gen.ReferenceIdeal
import proofs.«156040_j17514876633977_1_alg».proof.Proof.Gen.Pre_finite_inputs
import proofs.«156040_j17514876633977_1_alg».proof.Proof.Gen.ReferenceIdeal.Run
import proofs.«156040_j17514876633977_1_alg».proof.Proof.Gen.ReferenceIdeal.Read
import proofs.«156040_j17514876633977_1_alg».proof.Proof.KernelRun
import proofs.«156040_j17514876633977_1_alg».proof.Proof.Glue
import proofs.«156040_j17514876633977_1_alg».proof.Proof.RefLayers
import Idealize.ShloMosaic.Adequacy
import Idealize.ShloMosaic.Init

noncomputable section

namespace Cert.Proof

open Idealize.ShloMosaic Idealize.SL.Sem

/-! ## The reference's result is the kernel program's function of the arguments -/

section Value

open Cert.ReferenceIdeal Cert.ReferenceIdeal.Read

variable (x0 : (⟨S100000x32, .f32⟩ : BufTy).Contents (Elt Ideal)) (x1 : (⟨S1600000, .f32⟩ : BufTy).Contents (Elt Ideal))
  (x2 x3 : (⟨S1600000, .i32⟩ : BufTy).Contents (Elt Ideal)) (x4 : (⟨S32x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal))

/-- The reference's first two propagations are the kernel program's: the same operations on the same arrays. -/
theorem ref_spread32 :
    val_main_v29 (F := Ideal) x0 x1 x2 x3 = Cert.KernelIdeal.Glue.spread32 x1 x2 x3 (Cert.KernelIdeal.Glue.spread32 x1 x2 x3 x0) := rfl

/-- So are its last two, applied to its first dense stage. -/
theorem ref_spread64 :
    val_main_v64 (F := Ideal) x0 x1 x2 x3 x4 x5
      = Cert.KernelIdeal.Glue.spread64 x1 x2 x3 (Cert.KernelIdeal.Glue.spread64 x1 x2 x3 (val_main_v34 (F := Ideal) x0 x1 x2 x3 x4 x5)) := rfl

/-- The reference's result stage is the kernel program's function of the arguments. -/
theorem ref_value :
    val_main_v68 (F := Ideal) x0 x1 x2 x3 x4 x5 x6 x7 = Cert.KernelIdeal.Glue.value x0 x1 x2 x3 x4 x5 x6 x7 := by
  rw [Cert.ReferenceIdeal.Layers.second_dense, ref_spread64, Cert.ReferenceIdeal.Layers.first_dense, ref_spread32]
  rfl

end Value

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end, the kernel program's result array at `Glue.value` of its arguments (the launch with the result
    named, then the result read back through the two pallas_calls and host stretches) and the reference's at the same
    function of arguments that agree. -/
theorem algebraic : Cert.algebraic_KernelIdeal_ReferenceIdeal := by
  intro m ρ m' ρ' _ hagree
  refine ⟨fun c => Cert.KernelIdeal.Glue.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Glue.result_eq m ρ c), (h c).2⟩) (Cert.KernelIdeal.Result.run m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v68_eq, ref_value, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
